-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.LibRowDot.lean ====
/-
  A matrix product whose right operand is listed row by row: [a, k] · [b, k] → [a, b]. No batch axis; the one
  contracted axis, of extent k, is axis 1 of BOTH operands; the result's rows come from the left operand's rows and
  its columns from the right operand's rows. This is x · Yᵀ, the form of a linear layer whose weight is stored
  [out, in].

  The dimension numbers place the coordinates: the left operand is read at (row of the result, contraction
  position), the right operand at (column of the result, contraction position). At the ideal values both the
  kernel's product into a zero accumulator and the host's product are the exact sum over the contraction index, so
  entry (p, q) of either is  ∑ κ < k, l (p, κ) · r (q, κ).
-/
import Idealize.ShloMosaic.Lib.ValueIdx
import Idealize.ShloMosaic.PureOps.Ideal.Laws

namespace Cert.RowDot

open Idealize.ShloMosaic Idealize.ShloMosaic.ValueIdx

variable {a k b : ℕ} (d : DotDims ⟨2, ![a, k]⟩ ⟨2, ![b, k]⟩ ⟨2, ![a, b]⟩)

/-- The dimension numbers of a product with the right operand given by rows. -/
structure ByRows : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_row (h : ByRows d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column: its one free axis comes after the left operand's in the result. -/
theorem rhs_row (h : ByRows d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : ByRows d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhs_row h _ _
    | ⟨1, _⟩ => exact (d.rhsIdx_val_of_single h.rhsContr _ _).trans hk)
  rw [el, er]

/-- The kernel's matrix product into a zero accumulator, at an entry. -/
theorem matmul_zero_apply {φ₁ φ₂ : FTy} (h : ByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

/-- The host's matrix product, at an entry. -/
theorem dotGeneral_apply {φ₁ φ₂ : FTy} (h : ByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    Host.dotGeneral d prec l r (ix2 p q) = ∑ κ : Fin k, l (ix2 p κ) * r (ix2 q κ) := by
  simp only [Host.dotGeneral]
  exact (Ideal.dotGeneral_apply d prec _ l r (ix2 p q)).trans (sum_contr h hr hs l r p q)

end Cert.RowDot
-- ==== Proof.LibColumn.lean ====
/-
  A column vector read at an index given by coordinates: the two layout steps by which a per-row quantity (a row's
  sum, mean or scale, an [a] array) meets an [a, b] matrix. First it is given a trailing unit axis, [a] → [a, 1]
  ("keepdims"); then that column is repeated along the second axis, [a, 1] → [a, b]. At (p, c) both read the per-row
  quantity of row p, whatever the column c.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Spec.lean ====
/-
  The binarized linear layer as ONE function of its arguments, over the extended reals.

  For a weight matrix W : [1024, 1024] (one row per output feature), an input x : [32768, 1024] and a bias
  b : [1024]:
    • sgn w is +1 when w ≥ 0 and −1 otherwise (so the sign of zero is +1);
    • the scale of output row o is the mean of |W (o, ·)| over the row's 1024 entries, floored at the constant
      the two programs share (the float nearest 10⁻⁶; it is never evaluated here, both sides carry the same word);
    • the effective weight is  weff (o, k) = sgn (W (o, k)) · scale o;
    • the layer's output is  out (n, o) = ∑ k < 1024, x (n, k) · weff (o, k) + b o.
  The constants stay as the words the programs print; equal words denote equal extended reals.
-/
import Idealize.ShloMosaic.Lib.ValueIdx
import Idealize.ShloMosaic.PureOps.Ideal

noncomputable section

namespace Cert.BinLinear

open Idealize.ShloMosaic Idealize.ShloMosaic.ValueIdx

/-- The sign of a weight, the sign of zero taken as +1: the words of 1.0 and −1.0 selected by `w ≥ 0`. -/
def sgn (w : Ideal .f32) : Ideal .f32 :=
  Scalar.select (FloatOps.cmpf .oge w (Ideal.ofBits .f32 0x00000000#32)) (Ideal.ofBits .f32 0x3F800000#32) (Ideal.ofBits .f32 0xBF800000#32)

/-- The scale of output row `o`: the mean of the row's absolute values (their sum over 1024, divided by the word of
    1024.0), floored at the shared small constant. -/
def rowScale (W : FVec Ideal ⟨2, ![1024, 1024]⟩ .f32) (o : Fin 1024) : Ideal .f32 :=
  max (Ideal.div (∑ k : Fin 1024, max (W (ix2 o k)) (-(W (ix2 o k)))) (Ideal.ofBits .f32 0x44800000#32)) (Ideal.ofBits .f32 0x358637BD#32)

/-- The effective weight: the sign of each entry times its row's scale. -/
def weff (W : FVec Ideal ⟨2, ![1024, 1024]⟩ .f32) (o k : Fin 1024) : Ideal .f32 :=
  sgn (W (ix2 o k)) * rowScale W o

/-- Entry `(n, o)` of the layer's output: row `n` of the input against row `o` of the effective weight, plus the bias. -/
def entry (x : FVec Ideal ⟨2, ![32768, 1024]⟩ .f32) (W : FVec Ideal ⟨2, ![1024, 1024]⟩ .f32) (b : FVec Ideal ⟨1, ![1024]⟩ .f32)
    (n : Fin 32768) (o : Fin 1024) : Ideal .f32 :=
  (∑ k : Fin 1024, x (ix2 n k) * weff W o k) + b (ix1 o)

/-- The layer's output array. -/
def out (x : FVec Ideal ⟨2, ![32768, 1024]⟩ .f32) (W : FVec Ideal ⟨2, ![1024, 1024]⟩ .f32) (b : FVec Ideal ⟨1, ![1024]⟩ .f32) :
    FVec Ideal ⟨2, ![32768, 1024]⟩ .f32 :=
  fun i => entry x W b (i 0) (i 1)

theorem out_ix2 (x : FVec Ideal ⟨2, ![32768, 1024]⟩ .f32) (W : FVec Ideal ⟨2, ![1024, 1024]⟩ .f32) (b : FVec Ideal ⟨1, ![1024]⟩ .f32)
    (n : Fin 32768) (o : Fin 1024) : out x W b (ix2 n o) = entry x W b n o := rfl

end Cert.BinLinear

end
-- ==== Proof.KernelPayload.lean ====
/-
  What the kernel body stores, entry by entry, at the ideal values.

  The body loads a [1024, 1024] block of the input (rows n of the batch tile), the whole weight matrix and the bias,
  and stores ONE value: the product of the input block with the effective weight, contracted over the feature axis of
  both, plus the bias along the columns. Read at entry (p, q) of the block:
      ∑ k < 1024, block (p, k) · weff W (q, k)  +  b q.
  The two narrowings to bf16 in front of the product are the identity on extended reals; the product into a zero
  accumulator is the plain sum; the row scale reaches entry (q, k) through a trailing unit axis and a broadcast along
  the columns, both of which read row q.
-/
import proofs.«116924_j14259291422933_1_alg».proof.Proof.Gen.KernelIdeal.Skeleton
import proofs.«116924_j14259291422933_1_alg».proof.Proof.LibRowDot
import proofs.«116924_j14259291422933_1_alg».proof.Proof.LibColumn
import proofs.«116924_j14259291422933_1_alg».proof.Proof.Spec
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.BinLinear

/-- The product's dimension numbers: the right operand is given by rows. -/
theorem byRows : Cert.RowDot.ByRows dot_S1024x1024_S1024x1024_S1024x1024_1_1_0_0_n_n := ⟨rfl, rfl, rfl, rfl, rfl, rfl⟩

/-- The kernel's effective weight as the body computes it from the loaded weight matrix. -/
def kweight (W : FVec Ideal S1024x1024 .f32) : FVec Ideal S1024x1024 .f32 :=
  mulf (select (cmpf .oge W (broadcast S1024x1024 (Scalar.ofBits (F := Ideal) .f32 0x00000000#32)))
      (broadcast S1024x1024 (Scalar.ofBits (F := Ideal) .f32 0x3F800000#32)) (broadcast S1024x1024 (Scalar.ofBits (F := Ideal) .f32 0xBF800000#32)))
    (broadcastTo S1024x1024
      (maximumf (divf (shapeCast S1024x1 (multiReduction (F := Ideal) .add [1] S1024 (absf W) 0x00000000#32 reduces_S1024x1024_S1024 (.inl rfl) rfl) shapeCasts_S1024_S1024x1)
          (broadcast S1024x1 (Scalar.ofBits (F := Ideal) .f32 0x44800000#32)))
        (broadcast S1024x1 (Scalar.ofBits (F := Ideal) .f32 0x358637BD#32)))
      broadcasts_S1024x1_S1024x1024)

/-- The row sum of absolute values behind the scale of row `q`. -/
theorem rowsum_apply (W : FVec Ideal S1024x1024 .f32) (q : Fin 1024) :
    multiReduction (F := Ideal) .add [1] S1024 (absf W) 0x00000000#32 reduces_S1024x1024_S1024 (.inl rfl) rfl (ix1 q)
      = ∑ k : Fin 1024, max (W (ix2 q k)) (-(W (ix2 q k))) := by
  refine (Ideal.multiReduction_add_single (absf W) 0x00000000#32 reduces_S1024x1024_S1024 (.inl rfl) rfl (ix1 q)).trans ?_
  refine Finset.sum_congr rfl fun k _ => ?_
  have e : reduces_S1024x1024_S1024.lift (ix1 q) k = ix2 q k :=
    funext fun a => Fin.ext (by match a with | ⟨0, _⟩ => rfl | ⟨1, _⟩ => rfl)
  rw [e]; rfl

/-- The kernel's effective weight at (q, k) is the specification's. -/
theorem kweight_apply (W : FVec Ideal S1024x1024 .f32) (q k : Fin 1024) : kweight W (ix2 q k) = weff W q k := by
  unfold kweight
  rw [mulf_apply, Cert.Column.broadcastTo_a1_ab_apply, maximumf_apply, divf_apply, Cert.Column.shapeCast_a_a1_apply, rowsum_apply]
  rfl

/-- The stored value is the product with the effective weight plus the bias. -/
theorem pay_eq (v0 v2 : Vec Ideal S1024x1024 .f32) (v19 : Vec Ideal S1024 .f32) :
    k0_pay1 (F := Ideal) v0 v2 v19
      = addf (matmul dot_S1024x1024_S1024x1024_S1024x1024_1_1_0_0_n_n none (truncf .bf16 v0 bitsLt_bf16_f32) (truncf .bf16 (kweight v2) bitsLt_bf16_f32) (constant S1024x1024 .f32 0x00000000#32))
          (broadcastTo S1024x1024 (shapeCast S1x1024 v19 shapeCasts_S1024_S1x1024) broadcasts_S1x1024_S1024x1024) := rfl

/-- THE STORED VALUE AT (p, q): row p of the input block against row q of the effective weight, plus the bias at q. -/
theorem pay_apply (v0 v2 : Vec Ideal S1024x1024 .f32) (v19 : Vec Ideal S1024 .f32) (p q : Fin 1024) :
    k0_pay1 (F := Ideal) v0 v2 v19 (ix2 p q) = (∑ k : Fin 1024, v0 (ix2 p k) * weff v2 q k) + v19 (ix1 q) := by
  rw [pay_eq, addf_apply, Cert.RowDot.matmul_zero_apply byRows rfl rfl, broadcastTo_1b_ab_apply, shapeCast_a_1a_apply]
  refine congrArg (· + _) (Finset.sum_congr rfl fun k _ => ?_)
  rw [truncf_apply, truncf_apply, kweight_apply]

end Cert.KernelIdeal.Payload

end
-- ==== Proof.KernelArray.lean ====
/-
  From the blocks to the array: after the run the kernel's result array IS the layer's output of the argument arrays.

  Grid point t (one of 32) works on rows 1024·t … 1024·t + 1023: its input block is those rows of x (all 1024
  features), the weight matrix and the bias are the same whole arrays at every point, and what it writes back is the
  [1024, 1024] block of the result at the same rows (all 1024 output features). Entry (p, q) of that block is
  ∑ k, x (1024·t + p, k) · weff W (q, k) + b q — the layer's output at (1024·t + p, q). The 32 row blocks tile the
  result array: row r is in the block of point r / 1024.
-/
import proofs.«116924_j14259291422933_1_alg».proof.Proof.Gen.KernelIdeal.Value
import proofs.«116924_j14259291422933_1_alg».proof.Proof.KernelPayload

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BinLinear
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- ONE ENTRY of what a point stores, over plain arrays: if the loaded input block's row `j 0` is row `i 0` of
    the input array, the loaded weight and bias are the whole arrays, and the column is the same, then the stored
    value at `j` is the layer's output at `i`. -/
theorem stored_entry (x0 x1 : Vec Ideal S1024x1024 .f32) (x2 : Vec Ideal S1024 .f32)
    (X : FVec Ideal S32768x1024 .f32) (W : FVec Ideal S1024x1024 .f32) (B : FVec Ideal S1024 .f32)
    (j : S1024x1024.Idx) (i : S32768x1024.Idx)
    (hx : ∀ k : Fin 1024, x0 (ix2 (j 0) k) = X (ix2 (i 0) k)) (hw : x1 = W) (hb : x2 = B) (hcol : (i 1).val = (j 1).val) :
    k0_pay1 (F := Ideal) x0 x1 x2 j = out X W B i := by
  subst hw hb
  obtain ⟨p, q, rfl⟩ : ∃ (p q : Fin 1024), j = ix2 p q := ⟨j 0, j 1, eq_ix2 j⟩
  obtain ⟨n, o, rfl⟩ : ∃ (n : Fin 32768) (o : Fin 1024), i = ix2 n o := ⟨i 0, i 1, eq_ix2 i⟩
  have hq : o = q := Fin.ext hcol
  subst hq
  rw [Payload.pay_apply, out_ix2]
  unfold entry
  exact congrArg (· + _) (Finset.sum_congr rfl fun k _ => by rw [show x0 (ix2 p k) = X (ix2 n k) from hx k])

/-- The printed index maps over the grid: the input block and the output block sit at row block `t`, column
    block 0; the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of the layer's output of the argument arrays as the region finds them. -/
theorem flushed_eq (c : Dev nD) (t : Fin cfg0.N) :
    (dats m 0 c).flushed 3 t
      = ((cfg0.win 3).blk t).view.read (Elt Ideal) (out (V m c main_arg0) (V m c main_arg1) (V m c main_arg2)) := by
  rw [Value.flushed3]
  unfold out0_3
  rw [View.canon_unit_zero zeros2]
  simp only [View.ld_unit_zero (S := S1024x1024) zeros2, View.ld_unit_zero (S := S1024) zeros1]
  obtain ⟨e00, e01, e10, e11, e20, e30, e31⟩ := idx_facts t
  funext j
  refine stored_entry (iblk m c 0 t) (iblk m c 1 t) (iblk m c 2 t) (V m c main_arg0) (V m c main_arg1) (V m c main_arg2)
    j (((cfg0.win 3).blk t).view.emb j) (fun k => ?_) ?_ ?_ ?_
  · show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 1) * 1024 + 1 * (y 0).val = (y 0).val; omega
  · show win0_3.index t (1 : Fin 2) * 1024 + 1 * (j 1).val = (j 1).val; omega

/-- An index of the result array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The 32 row blocks tile the result array: row `r` lies in the block of point `r / 1024`. -/
theorem covered (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  let t : Fin cfg0.N := ⟨(i 0).val / 1024, by omega⟩
  obtain ⟨-, -, -, -, -, e30, e31⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the run is the layer's output of the argument arrays. -/
theorem final (c : Dev nD) :
    (dats m 0 c).arrAt 3 cfg0.N = out (m ((c : Thread nD τ).loc main_arg0)) (m ((c : Thread nD τ).loc main_arg1)) (m ((c : Thread nD τ).loc main_arg2)) :=
  (dats m 0 c).arrAt_eq_of_cover 3 (out (V m c main_arg0) (V m c main_arg1) (V m c main_arg2)) (fun t _ => flushed_eq m c t) covered

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference computes the specification.

  Read one operation at a time, the reference's weight stage at (o, k) is the sign of W (o, k) (a select between
  the words of 1.0 and −1.0 on W ≥ 0) times the scale of row o (the host's sum of |W (o, ·)| from a zero initial value,
  divided by 1024.0, floored at the shared constant, carried to (o, k) by two broadcasts that read row o); the zero
  initial value adds nothing. Its output at (n, o) is the product of row n of x with row o of that weight, contracted
  over the feature axis of both, plus the bias broadcast along the rows.
-/
import proofs.«116924_j14259291422933_1_alg».proof.Proof.Gen.ReferenceIdeal.Read
import proofs.«116924_j14259291422933_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.BinLinear

/-- The reference's weight stage at (o, k) is the specification's effective weight. -/
theorem weight_apply (W : (⟨S1024x1024, .f32⟩ : BufTy).Contents (Elt Ideal)) (o k : Fin 1024) :
    val_main_v12 (F := Ideal) W (ix2 o k) = weff W o k := by
  have e5 : ∀ k' : Fin 1024, idx_main_v5 (idx_main_v6 (idx_main_v11 (ix2 o k))) k' = ix2 o k' := fun k' =>
    funext fun a => Fin.ext (by match a with | ⟨0, _⟩ => rfl | ⟨1, _⟩ => rfl)
  simp only [val_main_v12_apply, val_main_v3_apply, val_main_v2_apply, val_main_v1_apply, val_main_v0_apply, val_main_cst_apply,
    val_main_call0_v0_apply, val_main_cst_0_apply, val_main_call0_v1_apply, val_main_cst_1_apply,
    val_main_v11_apply, val_main_v10_apply, val_main_v8_apply, val_main_v6_apply, val_main_v5_apply, val_main_cst_2_apply,
    val_main_v7_apply, val_main_cst_3_apply, val_main_v9_apply, val_main_cst_4_apply, val_main_v4_apply, e5]
  unfold weff sgn rowScale
  simp only [Ideal.ofBits_def, Ideal.ofBits_zero_f32, zero_add]
  rfl

/-- The reference's result is the layer's output. -/
theorem result_eq (x : (⟨S32768x1024, .f32⟩ : BufTy).Contents (Elt Ideal)) (W : (⟨S1024x1024, .f32⟩ : BufTy).Contents (Elt Ideal))
    (b : (⟨S1024, .f32⟩ : BufTy).Contents (Elt Ideal)) :
    val_main_v16 (F := Ideal) x W b = out x W b := by
  funext i
  obtain ⟨n, o, rfl⟩ : ∃ (n : Fin 32768) (o : Fin 1024), i = ix2 n o := ⟨i 0, i 1, eq_ix2 i⟩
  have el : ∀ k : Fin 1024, lidx_main_v13 (ix2 n o) k = ix2 n k := fun k =>
    funext fun a => Fin.ext (by match a with | ⟨0, _⟩ => rfl | ⟨1, _⟩ => rfl)
  have er : ∀ k : Fin 1024, ridx_main_v13 (ix2 n o) k = ix2 o k := fun k =>
    funext fun a => Fin.ext (by match a with | ⟨0, _⟩ => rfl | ⟨1, _⟩ => rfl)
  have eb : idx_main_v14 (idx_main_v15 (ix2 n o)) = ix1 o :=
    funext fun a => Fin.ext (by match a with | ⟨0, _⟩ => rfl)
  rw [out_ix2, val_main_v16_apply, val_main_v13_apply, val_main_v15_apply, val_main_v14_apply, eb]
  simp only [el, er, weight_apply]
  rfl

end Cert.ReferenceIdeal.RefValue

end
-- ==== Proof.lean ====
/-
  A binarized linear layer: the kernel against its jnp reference, over the extended reals.

  Both programs compute, for x : [32768, 1024], W : [1024, 1024] (one row per output feature) and b : [1024],
      out (n, o) = ∑ k < 1024, x (n, k) · (sgn (W (o, k)) · scale o) + b o,
  where sgn w is +1 for w ≥ 0 and −1 otherwise, and scale o is the mean of |W (o, ·)| over the row floored at a small
  constant that both programs spell with the same word (Spec.lean).

  The kernel tiles the batch axis into 32 blocks of 1024 rows; at each grid point it recomputes the effective weight from
  the whole weight matrix, narrows both operands to bf16 (the identity on extended reals), multiplies the input block by
  the effective weight contracting the feature axis of both into a zero accumulator (a plain sum), adds the bias along
  the columns and stores the block (KernelPayload.lean); the 32 blocks tile the result (KernelArray.lean). The reference
  forms the same effective weight on the host — its row sum starts from a zero initial value, which adds nothing — and
  takes one product over the whole batch (RefValue.lean). No algebraic law beyond 0 + s = s joins the two sides: the sums
  have the same terms in the same order, so the finiteness of the inputs is never used.

  The three frames: the two kernel programs' are the generated frame certificates; the reference's is its generated run
  with the result dropped. The idealization rewrote no operation, so there is nothing to preserve.
-/
import proofs.«116924_j14259291422933_1_alg».proof.Defs
import proofs.«116924_j14259291422933_1_alg».proof.Proof.Gen.Kernel
import proofs.«116924_j14259291422933_1_alg».proof.Proof.Gen.Kernel.Skeleton
import proofs.«116924_j14259291422933_1_alg».proof.Proof.Gen.Kernel.Launch
import proofs.«116924_j14259291422933_1_alg».proof.Proof.Gen.Kernel.Points
import proofs.«116924_j14259291422933_1_alg».proof.Proof.Gen.Kernel.Frame
import proofs.«116924_j14259291422933_1_alg».proof.Proof.Gen.KernelIdeal
import proofs.«116924_j14259291422933_1_alg».proof.Proof.Gen.KernelIdeal.Skeleton
import proofs.«116924_j14259291422933_1_alg».proof.Proof.Gen.KernelIdeal.Launch
import proofs.«116924_j14259291422933_1_alg».proof.Proof.Gen.KernelIdeal.Points
import proofs.«116924_j14259291422933_1_alg».proof.Proof.Gen.KernelIdeal.Frame
import proofs.«116924_j14259291422933_1_alg».proof.Proof.Gen.ReferenceIdeal
import proofs.«116924_j14259291422933_1_alg».proof.Proof.Gen.Pre_finite_inputs
import proofs.«116924_j14259291422933_1_alg».proof.Proof.Gen.KernelIdeal.Value
import proofs.«116924_j14259291422933_1_alg».proof.Proof.Gen.ReferenceIdeal.Run
import proofs.«116924_j14259291422933_1_alg».proof.Proof.Gen.ReferenceIdeal.Read
import proofs.«116924_j14259291422933_1_alg».proof.Proof.KernelArray
import proofs.«116924_j14259291422933_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on x, W and b, the kernel's result array ends at the layer's output of the arguments
    (the 32 row blocks, each the stored product plus bias), and the reference's result is the same function of the
    same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
